-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x256x256 : Shape := ⟨4, ![8, 64, 256, 256]⟩
abbrev S_ : Shape := ⟨0, ![]⟩

class Facts : Prop where
  bcast_S_S8x64x256x256 : S_.BroadcastsInDim S8x64x256x256 (![] : Fin 0 → Fin S8x64x256x256.rank)
  reducesTo_S8x64x256x256_S_d0_1_2_3 : S8x64x256x256.ReducesTo [0, 1, 2, 3] S_
  h_S_ : 0 < S_.numel

variable [Facts]

def fn {F : FTy → Type} [FloatOps F] (main_arg0 : FVec F S8x64x256x256 .f32) : IVec S_ 1 :=
  let main_v0 : FVec F S8x64x256x256 .f32 := Host.absf main_arg0
  let main_cst : FVec F S_ .f32 := constant S_ .f32 0x7F800000#32
  let main_v1 : FVec F S8x64x256x256 .f32 := broadcastInDim S8x64x256x256 ![] bcast_S_S8x64x256x256 main_cst
  let main_v2 : IVec S8x64x256x256 1 := cmpf .olt main_v0 main_v1
  let main_c : IVec S_ 1 := constantI S_ 1 1#1
  let main_v3 : IVec S_ 1 := (fun x v => Host.reduce IntOp.andi x v reducesTo_S8x64x256x256_S_d0_1_2_3 h_S_) main_v2 main_c
  main_v3
-- ==== Kernel.lean ====
abbrev S8x64x256x256 : Shape := ⟨4, ![8, 64, 256, 256]⟩
abbrev S8x32x128x128 : Shape := ⟨4, ![8, 32, 128, 128]⟩
abbrev S1x16x256x256 : Shape := ⟨4, ![1, 16, 256, 256]⟩
abbrev S1x8x128x128 : Shape := ⟨4, ![1, 8, 128, 128]⟩
abbrev S16x256x256 : Shape := ⟨3, ![16, 256, 256]⟩
abbrev S8x2x256x256 : Shape := ⟨4, ![8, 2, 256, 256]⟩
abbrev S8x256x256 : Shape := ⟨3, ![8, 256, 256]⟩
abbrev S8x128x2x256 : Shape := ⟨4, ![8, 128, 2, 256]⟩
abbrev S2x8x128x256 : Shape := ⟨4, ![2, 8, 128, 256]⟩
abbrev S1x8x128x256 : Shape := ⟨4, ![1, 8, 128, 256]⟩
abbrev S8x128x256 : Shape := ⟨3, ![8, 128, 256]⟩
abbrev S8x128x128x2 : Shape := ⟨4, ![8, 128, 128, 2]⟩
abbrev S2x8x128x128 : Shape := ⟨4, ![2, 8, 128, 128]⟩
abbrev S8x128x128 : Shape := ⟨3, ![8, 128, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x64x256x256, .f32⟩
  | .hbm, ⟨1, _⟩ => ⟨S8x32x128x128, .f32⟩
  | .local _ .vmem, ⟨0, _⟩ => ⟨S1x16x256x256, .f32⟩
  | .local _ .vmem, ⟨1, _⟩ => ⟨S1x16x256x256, .f32⟩
  | .local _ .vmem, ⟨2, _⟩ => ⟨S1x8x128x128, .f32⟩
  | .local _ .vmem, ⟨3, _⟩ => ⟨S1x8x128x128, .f32⟩
  | _, _ => ⟨S8x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S8x2x256x256 : S16x256x256.ShapeCasts S8x2x256x256
  reduces_S8x2x256x256_S8x256x256 : S8x2x256x256.Reduces [1] S8x256x256
  shapeCasts_S8x256x256_S8x128x2x256 : S8x256x256.ShapeCasts S8x128x2x256
  transposes_S8x128x2x256_p2_0_1_3_S2x8x128x256 : S8x128x2x256.Transposes [2, 0, 1, 3] S2x8x128x256
  slices_S2x8x128x256_o0_0_0_0_S1x8x128x256 : S2x8x128x256.Slices ![0, 0, 0, 0] S1x8x128x256
  shapeCasts_S1x8x128x256_S8x128x256 : S1x8x128x256.ShapeCasts S8x128x256
  slices_S2x8x128x256_o1_0_0_0_S1x8x128x256 : S2x8x128x256.Slices ![1, 0, 0, 0] S1x8x128x256
  shapeCasts_S8x128x256_S8x128x128x2 : S8x128x256.ShapeCasts S8x128x128x2
  transposes_S8x128x128x2_p3_0_1_2_S2x8x128x128 : S8x128x128x2.Transposes [3, 0, 1, 2] S2x8x128x128
  slices_S2x8x128x128_o0_0_0_0_S1x8x128x128 : S2x8x128x128.Slices ![0, 0, 0, 0] S1x8x128x128
  shapeCasts_S1x8x128x128_S8x128x128 : S1x8x128x128.ShapeCasts S8x128x128
  slices_S2x8x128x128_o1_0_0_0_S1x8x128x128 : S2x8x128x128.Slices ![1, 0, 0, 0] S1x8x128x128
  inb_S1x8x128x128_S1x8x128x128_0_0_0_0 : ∀ a, (![0, 0, 0, 0] : Fin 4 → Nat) a + S1x8x128x128.size a ≤ S1x8x128x128.size a
  h_S1x8x128x128 : 0 < S1x8x128x128.numel
  shapeCasts_S8x128x128_S1x8x128x128 : S8x128x128.ShapeCasts S1x8x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x256.size a ≤ S8x64x256x256.size a
  hwx0_0 : ∀ i : grid0.Coords, EltTy.bits .f32 = 32 ∨ (Rect.block (s := S8x64x256x256) S1x16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x128x128.size a ≤ S8x32x128x128.size a
  hwx0_1 : ∀ i : grid0.Coords, EltTy.bits .f32 = 32 ∨ (Rect.block (s := S8x32x128x128) S1x8x128x128.size (cc0_transform_1 i) (hinb0_1 i)).WholeWords (EltTy.packing .f32)

variable [Facts₀]

abbrev win0_0 : Pipeline.Window sig grid0 :=
  Pipeline.Window.ofSpec (Memref.whole main_arg0) S1x16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x64x256x256 : Shape := ⟨4, ![8, 64, 256, 256]⟩
abbrev S_ : Shape := ⟨0, ![]⟩
abbrev S8x32x128x128 : Shape := ⟨4, ![8, 32, 128, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x64x256x256, .f32⟩
  | .hbm, ⟨1, _⟩ => ⟨S_, .f32⟩
  | .hbm, ⟨2, _⟩ => ⟨S8x32x128x128, .f32⟩
  | _, _ => ⟨S8x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reduceWindows_S8x64x256x256_S8x32x128x128_w1s1p0_0_w2s2p0_0_w2s2p0_0_w2s2p0_0 : S8x64x256x256.ReduceWindows (![1, 2, 2, 2] : Fin 4 → Nat) ![1, 2, 2, 2] ![0, 0, 0, 0] ![0, 0, 0, 0] S8x32x128x128
  h_S_ : 0 < S_.numel

variable [Facts₀]

class Facts : Prop extends Facts₀ where

variable [Facts]
-- ==== Proof.Pool.lean ====
/-
  The mathematics of a 2×2×2 max-pool with stride 2, stated without any program.

  For an array `x` of shape [8, 64, 256, 256] the pooled array of shape [8, 32, 128, 128] holds, at
  `(b, d, h, w)`, the supremum of the eight entries `x (b, 2d + a, 2h + e, 2w + f)`, `a e f ∈ {0, 1}`.
  On the extended reals `max` is the join of a linear order with least element `-∞`, so a value built from
  those eight entries by `max` in ANY grouping and order, seeded with `-∞` any number of times, is that
  supremum.  Every such value is identified here by its upper bounds: `v ≤ c` iff each of the eight
  entries is `≤ c`.  The layout lemmas below read the kernel's reshapes, transposes and slices at an
  index given by coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Pool

open Idealize.ShloMosaic Idealize.ShloMosaic.ValueIdx

/-! ## The pooled function -/

/-- Entry `(a, e, f)` of the window under output index `(b, d, h, w)`. -/
def win (b : Fin 8) (d : Fin 32) (h w : Fin 128) (a e f : Fin 2) : (⟨4, ![8, 64, 256, 256]⟩ : Shape).Idx :=
  ix4 b (⟨2 * d.val + a.val, by omega⟩ : Fin 64) (⟨2 * h.val + e.val, by omega⟩ : Fin 256)
    (⟨2 * w.val + f.val, by omega⟩ : Fin 256)

/-- The max-pool: the supremum over the 2×2×2 window. -/
def pool (x : (⟨4, ![8, 64, 256, 256]⟩ : Shape).Idx → EReal) : (⟨4, ![8, 32, 128, 128]⟩ : Shape).Idx → EReal :=
  fun j => ⨆ p : Fin 2 × Fin 2 × Fin 2, x (win (j 0) (j 1) (j 2) (j 3) p.1 p.2.1 p.2.2)

/-- The pooled value's upper bounds are the common upper bounds of the window's eight entries. -/
theorem pool_le_iff (x : (⟨4, ![8, 64, 256, 256]⟩ : Shape).Idx → EReal) (j : (⟨4, ![8, 32, 128, 128]⟩ : Shape).Idx)
    (c : EReal) : pool x j ≤ c ↔ ∀ a e f : Fin 2, x (win (j 0) (j 1) (j 2) (j 3) a e f) ≤ c := by
  unfold pool
  rw [iSup_le_iff]
  exact ⟨fun h a e f => h (a, e, f), fun h p => h p.1 p.2.1 p.2.2⟩

/-! ## `-∞` and folds of `max` -/

/-- The f32 pattern `0xFF800000` is `-∞`, the least extended real. -/
theorem negInf : Ideal.ofBits .f32 0xFF800000#32 = (⊥ : EReal) := by simp [Ideal.ofBits, Ideal.ieee]

/-- A left fold of `max` over a list, from a seed: its upper bounds are those of the seed and of every term. -/
theorem foldl_max_le_iff {ι : Type} (g : ι → EReal) (l : List ι) (v c : EReal) :
    l.foldl (fun r n => max r (g n)) v ≤ c ↔ v ≤ c ∧ ∀ n ∈ l, g n ≤ c := by
  induction l generalizing v with
  | nil => simp
  | cons n l ih =>
    rw [List.foldl_cons, ih, max_le_iff]
    constructor
    · rintro ⟨⟨hv, hn⟩, hl⟩
      exact ⟨hv, fun k hk => by
        rcases List.mem_cons.1 hk with rfl | hk
        · exact hn
        · exact hl k hk⟩
    · rintro ⟨hv, hl⟩
      exact ⟨⟨hv, hl n (List.mem_cons_self)⟩, fun k hk => hl k (List.mem_cons_of_mem _ hk)⟩

/-! ## The kernel's layout operations read at coordinates -/

section Layout
variable {α : Type}

/-- [16, H, W] viewed as [8, 2, H, W]: entry `(d, k, h, w)` is entry `(2d + k, h, w)`. -/
theorem cast_depth (x : (⟨3, ![16, 256, 256]⟩ : Shape).Idx → α)
    (hc : (⟨3, ![16, 256, 256]⟩ : Shape).ShapeCasts ⟨4, ![8, 2, 256, 256]⟩) (d : Fin 8) (k : Fin 2) (h w : Fin 256) :
    shapeCast ⟨4, ![8, 2, 256, 256]⟩ x hc (ix4 d k h w)
      = x (ix3 (⟨2 * d.val + k.val, by omega⟩ : Fin 16) h w) :=
  shapeCast_apply x hc _ _ (by
    rw [Shape.rowMajor_val_three, Shape.rowMajor_val_four]
    show ((2 * d.val + k.val) * 256 + h.val) * 256 + w.val = ((d.val * 2 + k.val) * 256 + h.val) * 256 + w.val
    omega)

/-- [8, 256, W] viewed as [8, 128, 2, W]: entry `(d, h, t, w)` is entry `(d, 2h + t, w)`. -/
theorem cast_rows (x : (⟨3, ![8, 256, 256]⟩ : Shape).Idx → α)
    (hc : (⟨3, ![8, 256, 256]⟩ : Shape).ShapeCasts ⟨4, ![8, 128, 2, 256]⟩) (d : Fin 8) (h : Fin 128) (t : Fin 2)
    (w : Fin 256) :
    shapeCast ⟨4, ![8, 128, 2, 256]⟩ x hc (ix4 d h t w)
      = x (ix3 d (⟨2 * h.val + t.val, by omega⟩ : Fin 256) w) :=
  shapeCast_apply x hc _ _ (by
    rw [Shape.rowMajor_val_three, Shape.rowMajor_val_four]
    show (d.val * 256 + (2 * h.val + t.val)) * 256 + w.val = ((d.val * 128 + h.val) * 2 + t.val) * 256 + w.val
    omega)

/-- [8, 128, 256] viewed as [8, 128, 128, 2]: entry `(d, h, w, t)` is entry `(d, h, 2w + t)`. -/
theorem cast_cols (x : (⟨3, ![8, 128, 256]⟩ : Shape).Idx → α)
    (hc : (⟨3, ![8, 128, 256]⟩ : Shape).ShapeCasts ⟨4, ![8, 128, 128, 2]⟩) (d : Fin 8) (h w : Fin 128) (t : Fin 2) :
    shapeCast ⟨4, ![8, 128, 128, 2]⟩ x hc (ix4 d h w t)
      = x (ix3 d h (⟨2 * w.val + t.val, by omega⟩ : Fin 256)) :=
  shapeCast_apply x hc _ _ (by
    rw [Shape.rowMajor_val_three, Shape.rowMajor_val_four]
    show (d.val * 128 + h.val) * 256 + (2 * w.val + t.val) = ((d.val * 128 + h.val) * 128 + w.val) * 2 + t.val
    omega)

/-- The transpose that brings the parity axis of [8, 128, 2, 256] to the front. -/
theorem transpose_rows (x : (⟨4, ![8, 128, 2, 256]⟩ : Shape).Idx → α)
    (ht : (⟨4, ![8, 128, 2, 256]⟩ : Shape).Transposes [2, 0, 1, 3] ⟨4, ![2, 8, 128, 256]⟩) (t : Fin 2) (d : Fin 8)
    (h : Fin 128) (w : Fin 256) :
    transpose ⟨4, ![2, 8, 128, 256]⟩ [2, 0, 1, 3] x ht (ix4 t d h w) = x (ix4 d h t w) :=
  transpose_apply _ x ht _ _ (fun b => match b with
    | ⟨0, _⟩ => rfl | ⟨1, _⟩ => rfl | ⟨2, _⟩ => rfl | ⟨3, _⟩ => rfl)

/-- The transpose that brings the parity axis of [8, 128, 128, 2] to the front. -/
theorem transpose_cols (x : (⟨4, ![8, 128, 128, 2]⟩ : Shape).Idx → α)
    (ht : (⟨4, ![8, 128, 128, 2]⟩ : Shape).Transposes [3, 0, 1, 2] ⟨4, ![2, 8, 128, 128]⟩) (t : Fin 2) (d : Fin 8)
    (h w : Fin 128) :
    transpose ⟨4, ![2, 8, 128, 128]⟩ [3, 0, 1, 2] x ht (ix4 t d h w) = x (ix4 d h w t) :=
  transpose_apply _ x ht _ _ (fun b => match b with
    | ⟨0, _⟩ => rfl | ⟨1, _⟩ => rfl | ⟨2, _⟩ => rfl | ⟨3, _⟩ => rfl)

/-- The first half of a [2, A, B, C] array, as a [1, A, B, C] slice. -/
theorem slice_lo {A B C : ℕ} (x : (⟨4, ![2, A, B, C]⟩ : Shape).Idx → α)
    (hs : (⟨4, ![2, A, B, C]⟩ : Shape).Slices ![0, 0, 0, 0] ⟨4, ![1, A, B, C]⟩) (u : Fin 1) (p : Fin A) (q : Fin B)
    (r : Fin C) :
    extractStridedSlice ⟨4, ![1, A, B, C]⟩ ![0, 0, 0, 0] x hs (ix4 u p q r) = x (ix4 (0 : Fin 2) p q r) :=
  extractStridedSlice_apply _ x hs _ _ (fun a => match a with
    | ⟨0, _⟩ => by show 0 = 0 + u.val; omega
    | ⟨1, _⟩ => by show p.val = 0 + p.val; omega
    | ⟨2, _⟩ => by show q.val = 0 + q.val; omega
    | ⟨3, _⟩ => by show r.val = 0 + r.val; omega)

/-- The second half of a [2, A, B, C] array, as a [1, A, B, C] slice. -/
theorem slice_hi {A B C : ℕ} (x : (⟨4, ![2, A, B, C]⟩ : Shape).Idx → α)
    (hs : (⟨4, ![2, A, B, C]⟩ : Shape).Slices ![1, 0, 0, 0] ⟨4, ![1, A, B, C]⟩) (u : Fin 1) (p : Fin A) (q : Fin B)
    (r : Fin C) :
    extractStridedSlice ⟨4, ![1, A, B, C]⟩ ![1, 0, 0, 0] x hs (ix4 u p q r) = x (ix4 (1 : Fin 2) p q r) :=
  extractStridedSlice_apply _ x hs _ _ (fun a => match a with
    | ⟨0, _⟩ => by show 1 = 1 + u.val; omega
    | ⟨1, _⟩ => by show p.val = 0 + p.val; omega
    | ⟨2, _⟩ => by show q.val = 0 + q.val; omega
    | ⟨3, _⟩ => by show r.val = 0 + r.val; omega)

end Layout

/-! ## The depth reduction -/

/-- Index `(d, h, w)` of the reduced array with `k` put back on the reduced axis. -/
theorem lift_depth (hr : (⟨4, ![8, 2, 256, 256]⟩ : Shape).Reduces [1] ⟨3, ![8, 256, 256]⟩) (d : Fin 8) (h w : Fin 256)
    (k : Fin 2) : hr.lift (ix3 d h w) k = ix4 d k h w := by
  funext a
  apply Fin.ext
  show hr.liftVal (ix3 d h w) k.val a = (ix4 d k h w a).val
  unfold Shape.Reduces.liftVal
  match a with
  | ⟨0, _⟩ => rfl
  | ⟨1, _⟩ => rfl
  | ⟨2, _⟩ => rfl
  | ⟨3, _⟩ => rfl

/-- The maximum over the pair axis of an [8, 2, 256, 256] array, seeded with `-∞`: its upper bounds are those of
    the two entries. -/
theorem depth_max_le_iff (v : (⟨4, ![8, 2, 256, 256]⟩ : Shape).Idx → EReal)
    (hr : (⟨4, ![8, 2, 256, 256]⟩ : Shape).Reduces [1] ⟨3, ![8, 256, 256]⟩) (hφ : FKind.Formats .f32)
    (hacc : (0xFF800000#32 : BitVec 32) = FKind.maximumf.neutral .f32 hφ) (d : Fin 8) (h w : Fin 256) (c : EReal) :
    multiReduction (F := Ideal) .maximumf [1] ⟨3, ![8, 256, 256]⟩ v 0xFF800000#32 hr hφ hacc (ix3 d h w) ≤ c
      ↔ ∀ k : Fin 2, v (ix4 d k h w) ≤ c := by
  rw [Ideal.multiReduction_maximumf_single, Finset.fold_max_le]
  constructor
  · intro hh k
    exact le_of_eq_of_le (congrArg v (lift_depth hr d h w k)).symm (hh.2 k (Finset.mem_univ _))
  · intro hh
    refine ⟨?_, fun k _ => le_of_eq_of_le (congrArg v (lift_depth hr d h w k)) (hh k)⟩
    show Ideal.ofBits .f32 0xFF800000#32 ≤ c
    rw [negInf]
    exact bot_le

end Cert.Pool

end
-- ==== Proof.KernelBlock.lean ====
/-
  What one grid step of the kernel computes, entry by entry.

  The body takes a [1, 16, 256, 256] block `X`, maximises over adjacent depth pairs, then over adjacent row
  pairs (even and odd rows separated by a reshape, a transpose and two slices), then over adjacent column pairs the
  same way.  So entry `(0, d, h, w)` of the stored [1, 8, 128, 128] block is built by `max` from the eight entries
  `X (0, 2d + a, 2h + e, 2w + f)`, and its upper bounds are exactly their common upper bounds.
-/
import proofs.«126995_j13537736917667_1_alg».proof.Proof.Gen.KernelIdeal.Skeleton
import proofs.«126995_j13537736917667_1_alg».proof.Proof.Pool

noncomputable section

namespace Cert.KernelIdeal.Block

open Cert.KernelIdeal Cert.KernelIdeal.Gen Idealize.ShloMosaic Idealize.ShloMosaic.ValueIdx Cert.Pool

/-! ## The body in three stages -/

/-- Depth pairs: the block viewed [8, 2, 256, 256] and maximised over the pair axis. -/
def depthStage (X : Vec Ideal S1x16x256x256 .f32) : FVec Ideal S8x256x256 .f32 :=
  multiReduction .maximumf [1] S8x256x256
    (shapeCast S8x2x256x256 (shapeCast S16x256x256 X shapeCasts_S1x16x256x256_S16x256x256)
      shapeCasts_S16x256x256_S8x2x256x256)
    0xFF800000#32 reduces_S8x2x256x256_S8x256x256 (.inl rfl) rfl

/-- Row pairs: even rows against odd rows. -/
def rowStage (u : FVec Ideal S8x256x256 .f32) : FVec Ideal S8x128x256 .f32 :=
  maximumf
    (shapeCast S8x128x256
      (extractStridedSlice S1x8x128x256 ![0, 0, 0, 0]
        (transpose S2x8x128x256 [2, 0, 1, 3] (shapeCast S8x128x2x256 u shapeCasts_S8x256x256_S8x128x2x256)
          transposes_S8x128x2x256_p2_0_1_3_S2x8x128x256)
        slices_S2x8x128x256_o0_0_0_0_S1x8x128x256)
      shapeCasts_S1x8x128x256_S8x128x256)
    (shapeCast S8x128x256
      (extractStridedSlice S1x8x128x256 ![1, 0, 0, 0]
        (transpose S2x8x128x256 [2, 0, 1, 3] (shapeCast S8x128x2x256 u shapeCasts_S8x256x256_S8x128x2x256)
          transposes_S8x128x2x256_p2_0_1_3_S2x8x128x256)
        slices_S2x8x128x256_o1_0_0_0_S1x8x128x256)
      shapeCasts_S1x8x128x256_S8x128x256)

/-- Column pairs: even columns against odd columns. -/
def colStage (u : FVec Ideal S8x128x256 .f32) : FVec Ideal S8x128x128 .f32 :=
  maximumf
    (shapeCast S8x128x128
      (extractStridedSlice S1x8x128x128 ![0, 0, 0, 0]
        (transpose S2x8x128x128 [3, 0, 1, 2] (shapeCast S8x128x128x2 u shapeCasts_S8x128x256_S8x128x128x2)
          transposes_S8x128x128x2_p3_0_1_2_S2x8x128x128)
        slices_S2x8x128x128_o0_0_0_0_S1x8x128x128)
      shapeCasts_S1x8x128x128_S8x128x128)
    (shapeCast S8x128x128
      (extractStridedSlice S1x8x128x128 ![1, 0, 0, 0]
        (transpose S2x8x128x128 [3, 0, 1, 2] (shapeCast S8x128x128x2 u shapeCasts_S8x128x256_S8x128x128x2)
          transposes_S8x128x128x2_p3_0_1_2_S2x8x128x128)
        slices_S2x8x128x128_o1_0_0_0_S1x8x128x128)
      shapeCasts_S1x8x128x128_S8x128x128)

/-- The stored value is the three stages in turn, with a unit axis put in front. -/
theorem pay_eq (X : Vec Ideal S1x16x256x256 .f32) :
    k0_pay1 (F := Ideal) X
      = shapeCast S1x8x128x128 (colStage (rowStage (depthStage X))) shapeCasts_S8x128x128_S1x8x128x128 := rfl

/-! ## Each stage at an entry -/

theorem colStage_apply (u : FVec Ideal S8x128x256 .f32) (d : Fin 8) (h w : Fin 128) :
    colStage u (ix3 d h w)
      = max (u (ix3 d h (⟨2 * w.val + (0 : Fin 2).val, by omega⟩ : Fin 256)))
          (u (ix3 d h (⟨2 * w.val + (1 : Fin 2).val, by omega⟩ : Fin 256))) := by
  unfold colStage
  rw [maximumf_apply, shapeCast_1abc_abc_apply, shapeCast_1abc_abc_apply, slice_lo, slice_hi, transpose_cols,
    transpose_cols, cast_cols, cast_cols]

theorem rowStage_apply (u : FVec Ideal S8x256x256 .f32) (d : Fin 8) (h : Fin 128) (w : Fin 256) :
    rowStage u (ix3 d h w)
      = max (u (ix3 d (⟨2 * h.val + (0 : Fin 2).val, by omega⟩ : Fin 256) w))
          (u (ix3 d (⟨2 * h.val + (1 : Fin 2).val, by omega⟩ : Fin 256) w)) := by
  unfold rowStage
  rw [maximumf_apply, shapeCast_1abc_abc_apply, shapeCast_1abc_abc_apply, slice_lo, slice_hi, transpose_rows,
    transpose_rows, cast_rows, cast_rows]

theorem depthStage_le_iff (X : Vec Ideal S1x16x256x256 .f32) (d : Fin 8) (h w : Fin 256) (c : EReal) :
    depthStage X (ix3 d h w) ≤ c
      ↔ ∀ k : Fin 2, X (ix4 (0 : Fin 1) (⟨2 * d.val + k.val, by omega⟩ : Fin 16) h w) ≤ c := by
  unfold depthStage
  refine (depth_max_le_iff _ _ _ _ d h w c).trans ?_
  exact forall_congr' fun k => by rw [cast_depth, shapeCast_1abc_abc_apply]

/-! ## The stored block at an entry -/

/-- Entry `(a, e, f)` of the loaded block's window under the stored block's entry `(0, d, h, w)`. -/
def bwin (d : Fin 8) (h w : Fin 128) (a e f : Fin 2) : S1x16x256x256.Idx :=
  ix4 (0 : Fin 1) (⟨2 * d.val + a.val, by omega⟩ : Fin 16) (⟨2 * h.val + e.val, by omega⟩ : Fin 256)
    (⟨2 * w.val + f.val, by omega⟩ : Fin 256)

/-- The stored block's entry `(0, d, h, w)` is bounded by `c` iff the eight window entries of the loaded block are:
    the column stage splits on the column parity, the row stage on the row parity, the depth stage on the depth
    parity. -/
theorem pay_le_iff (X : Vec Ideal S1x16x256x256 .f32) (d : Fin 8) (h w : Fin 128) (c : EReal) :
    k0_pay1 (F := Ideal) X (ix4 (0 : Fin 1) d h w) ≤ c ↔ ∀ a e f : Fin 2, X (bwin d h w a e f) ≤ c := by
  rw [pay_eq, shapeCast_abc_1abc_apply, colStage_apply, max_le_iff, rowStage_apply, rowStage_apply, max_le_iff,
    max_le_iff, depthStage_le_iff, depthStage_le_iff, depthStage_le_iff, depthStage_le_iff]
  constructor
  · rintro ⟨⟨h00, h10⟩, h01, h11⟩ a e f
    match e, f with
    | ⟨0, _⟩, ⟨0, _⟩ => exact h00 a
    | ⟨1, _⟩, ⟨0, _⟩ => exact h10 a
    | ⟨0, _⟩, ⟨1, _⟩ => exact h01 a
    | ⟨1, _⟩, ⟨1, _⟩ => exact h11 a
  · intro H
    exact ⟨⟨fun k => H k 0 0, fun k => H k 1 0⟩, fun k => H k 0 1, fun k => H k 1 1⟩

end Cert.KernelIdeal.Block

end
-- ==== Proof.KernelValue.lean ====
/-
  From grid steps to the whole result array.

  Grid step `t = (b, q)` loads rows `16q … 16q + 15` of batch `b` of the argument as its [1, 16, 256, 256] block and
  writes the [1, 8, 128, 128] block at rows `8q … 8q + 7` of batch `b` of the result.  The window of the result's
  entry `(b, 8q + d, h, w)` lies inside the loaded block, so what the step writes back is that block of the pooled
  array; the 32 blocks tile the result, so after the run the result IS the pooled array of the argument.
-/
import proofs.«126995_j13537736917667_1_alg».proof.Proof.Gen.KernelIdeal.Value
import proofs.«126995_j13537736917667_1_alg».proof.Proof.KernelBlock

noncomputable section

namespace Cert.KernelIdeal.ArrValue

open Cert.KernelIdeal Cert.KernelIdeal.Gen Idealize.ShloMosaic Idealize.ShloMosaic.TcCoe Idealize.SL.Sem
open Idealize.ShloMosaic.Pipeline (Dat)
open Idealize.ShloMosaic.ValueIdx Cert.Pool Cert.KernelIdeal.Block

variable (m : (ℓ : Loc nD τ sig) → Buf (Elt Ideal) ℓ) (ρ : Dev nD → PrngReg)

theorem hz : (![0, 0, 0, 0] : Fin 4 → Nat) = fun _ => 0 := funext fun a => by fin_cases a <;> rfl

/-! ## One block -/

/-- A [1, 16, 256, 256] block `X` that is rows `16q …` of batch `b` of an array `A` yields, at entry `y` of the stored
    block, the pooled array of `A` at `(b, 8q + y₁, y₂, y₃)`: both are characterised by the same eight upper-bound
    conditions. -/
theorem block_eq (X : Vec Ideal S1x16x256x256 .f32) (A : S8x64x256x256.Idx → EReal) (b q : ℕ) (hb : b < 8) (hq : q < 4)
    (hX : ∀ (p : Fin 16) (r s : Fin 256),
      X (ix4 (0 : Fin 1) p r s) = A (ix4 (⟨b, hb⟩ : Fin 8) (⟨q * 16 + p.val, by omega⟩ : Fin 64) r s))
    (y : S1x8x128x128.Idx) :
    k0_pay1 (F := Ideal) X y
      = pool A (ix4 (⟨b, hb⟩ : Fin 8) (⟨q * 8 + (y 1).val, by have h8 : (y 1).val < 8 := (y 1).isLt; omega⟩ : Fin 32) (y 2) (y 3)) := by
  obtain ⟨u, d, h, w, rfl⟩ : ∃ (u : Fin 1) (d : Fin 8) (h w : Fin 128), y = ix4 u d h w :=
    ⟨y 0, y 1, y 2, y 3, eq_ix4 y⟩
  have hu : u = 0 := Fin.fin_one_eq_zero u
  subst hu
  apply eq_of_forall_ge_iff
  intro c
  rw [pay_le_iff, pool_le_iff]
  refine forall_congr' fun a => forall_congr' fun e => forall_congr' fun f => ?_
  unfold bwin
  rw [hX]
  refine iff_of_eq (congrArg (fun i => A i ≤ c) ?_)
  funext k
  apply Fin.ext
  match k with
  | ⟨0, _⟩ => rfl
  | ⟨1, _⟩ => show q * 16 + (2 * d.val + a.val) = 2 * (q * 8 + d.val) + a.val; omega
  | ⟨2, _⟩ => rfl
  | ⟨3, _⟩ => rfl

/-! ## The grid -/

/-- The printed index maps, decided over the 32 grid points: the input block moves with the output block on the batch and
    depth axes, both stay at 0 on the last two, and the output's block indices stay in range. -/
theorem idx_facts : ∀ t : Fin cfg0.N,
    win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) < 8 ∧ win0_1.index t (1 : Fin 4) < 4 :=
  (by decide +kernel : ∀ t : Fin grid0.N, _)

/-- Every output block is some grid point's. -/
theorem idx_onto : ∀ (q0 : Fin 8) (q1 : Fin 4), ∃ t : Fin cfg0.N, win0_1.index t = ![q0.val, q1.val, 0, 0] :=
  (by decide +kernel : ∀ (q0 : Fin 8) (q1 : Fin 4), ∃ t : Fin grid0.N, win0_1.index t = ![q0.val, q1.val, 0, 0])

/-- WHAT POINT `t` WRITES BACK is block `t` of the pooled array of the argument. -/
theorem flushed_eq (c : Dev nD) (t : Fin cfg0.N) :
    (dats m 0 c).flushed 1 t = ((cfg0.win 1).blk t).view.read (Elt Ideal) (pool (V m c main_arg0)) := by
  rw [Value.flushed1]
  unfold out0_1
  rw [View.canon_unit_zero hz]
  simp only [View.ld_unit_zero (S := S1x16x256x256) hz]
  obtain ⟨e0, e1, e2, e3, e4, e5, e6, e7⟩ := idx_facts t
  funext y
  show k0_pay1 (F := Ideal) (iblk m c 0 t) y = pool (V m c main_arg0) (((cfg0.win 1).blk t).view.emb y)
  refine (block_eq (iblk m c 0 t) (V m c main_arg0) (win0_1.index t (0 : Fin 4)) (win0_1.index t (1 : Fin 4)) e6 e7
    (fun p r s => ?_) y).trans ?_
  · show V m c main_arg0 (((cfg0.win 0).blk t).view.emb (ix4 (0 : Fin 1) p r s)) = V m c main_arg0 _
    refine congrArg (V m c main_arg0) ?_
    funext a
    apply Fin.ext
    match a with
    | ⟨0, _⟩ => show win0_0.index t (0 : Fin 4) * 1 + 1 * 0 = win0_1.index t (0 : Fin 4); omega
    | ⟨1, _⟩ => show win0_0.index t (1 : Fin 4) * 16 + 1 * p.val = win0_1.index t (1 : Fin 4) * 16 + p.val; omega
    | ⟨2, _⟩ => show win0_0.index t (2 : Fin 4) * 256 + 1 * r.val = r.val; omega
    | ⟨3, _⟩ => show win0_0.index t (3 : Fin 4) * 256 + 1 * s.val = s.val; omega
  · refine congrArg (pool (V m c main_arg0)) ?_
    funext a
    apply Fin.ext
    have y0 : (y 0).val < 1 := (y 0).isLt
    match a with
    | ⟨0, _⟩ => show win0_1.index t (0 : Fin 4) = win0_1.index t (0 : Fin 4) * 1 + 1 * (y 0).val; omega
    | ⟨1, _⟩ => show win0_1.index t (1 : Fin 4) * 8 + (y 1).val = win0_1.index t (1 : Fin 4) * 8 + 1 * (y 1).val; omega
    | ⟨2, _⟩ => show (y 2).val = win0_1.index t (2 : Fin 4) * 128 + 1 * (y 2).val; omega
    | ⟨3, _⟩ => show (y 3).val = win0_1.index t (3 : Fin 4) * 128 + 1 * (y 3).val; omega

/-- An index of the result is in point `t`'s block iff each coordinate is in the block's range on its axis. -/
theorem mem_blk (t : Fin cfg0.N) (i : S8x32x128x128.Idx) :
    i ∈ ((cfg0.win 1).blk t).view.set ↔ ∀ a : Fin 4, win0_1.index t a * S1x8x128x128.size a ≤ (i a).val
      ∧ (i a).val < win0_1.index t a * S1x8x128x128.size a + S1x8x128x128.size a := by
  show i ∈ ((View.whole main_v0).slice (win0_1.rect t)).set ↔ _
  rw [View.set_slice_whole, Rect.mem_set_unit]
  exact Iff.rfl

/-- The 32 blocks cover the result: entry `(b, r, h, w)` is in the block of the point with block index `(b, r / 8)`. -/
theorem covered (i : S8x32x128x128.Idx) :
    ∃ t : Fin cfg0.N, (cfg0.win 1).flush t = true ∧ i ∈ ((cfg0.win 1).blk t).view.set := by
  have hi0 : (i 0).val < 8 := (i 0).isLt
  have hi1 : (i 1).val < 32 := (i 1).isLt
  have hi2 : (i 2).val < 128 := (i 2).isLt
  have hi3 : (i 3).val < 128 := (i 3).isLt
  obtain ⟨t, ht⟩ := idx_onto ⟨(i 0).val, hi0⟩ ⟨(i 1).val / 8, by omega⟩
  have q0 : win0_1.index t (0 : Fin 4) = (i 0).val := congrFun ht 0
  have q1 : win0_1.index t (1 : Fin 4) = (i 1).val / 8 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 8 ≤ (i 1).val ∧ (i 1).val < win0_1.index t (1 : Fin 4) * 8 + 8; omega
  | ⟨2, _⟩ => show win0_1.index t (2 : Fin 4) * 128 ≤ (i 2).val ∧ (i 2).val < win0_1.index t (2 : Fin 4) * 128 + 128; omega
  | ⟨3, _⟩ => show win0_1.index t (3 : Fin 4) * 128 ≤ (i 3).val ∧ (i 3).val < win0_1.index t (3 : Fin 4) * 128 + 128; omega

/-- THE RESULT ARRAY after the run is the pooled array of the argument as launched. -/
theorem final (c : Dev nD) :
    (dats m 0 c).arrAt 1 cfg0.N = pool (m ((c : Thread nD τ).loc main_arg0)) :=
  ((dats m 0 c).arrAt_eq_of_cover 1 (pool (V m c main_arg0)) (fun t _ => flushed_eq m c t) covered).trans
    (congrArg pool (V_main_arg0 m c))

/-- The kernel's run: the result ends at the pooled array of the argument, the argument unchanged. -/
theorem run : θ_run defs (onTc (τ := τ) (main (F := Ideal))) ⟨m, fun _ => 0, ρ⟩ fun r => ∀ c : Dev nD,
      r.2.mem ((c : Thread nD τ).loc main_v0) = pool (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrValue

end
-- ==== Proof.RefPool.lean ====
/-
  The reference's result is the pooled function.

  The reference reduces each 1×2×2×2 window (stride the same) by `max` from `-∞`, visiting the window's positions in
  row-major order.  No window position falls outside the array, so the fold runs over exactly the eight entries under
  the output index; its upper bounds are their common upper bounds, which characterises the supremum.
-/
import proofs.«126995_j13537736917667_1_alg».proof.Proof.Gen.ReferenceIdeal.Read
import proofs.«126995_j13537736917667_1_alg».proof.Proof.Pool

noncomputable section

namespace Cert.ReferenceIdeal.RefValue

open Cert.ReferenceIdeal Cert.ReferenceIdeal.Gen Idealize.ShloMosaic Idealize.ShloMosaic.ValueIdx Cert.Pool

/-- The window shape of the reduction. -/
abbrev Wn : Shape := ⟨4, ![1, 2, 2, 2]⟩

/-- The reference's windowed maximum is the pooled array. -/
theorem ref_eq_pool (x : (⟨S8x64x256x256, .f32⟩ : BufTy).Contents (Elt Ideal)) :
    Read.val_main_v0 (F := Ideal) x = pool x := by
  funext j
  apply eq_of_forall_ge_iff
  intro c
  rw [pool_le_iff]
  unfold Read.val_main_v0 Host.reduceWindow
  simp only [Ideal.maximumf_def, Read.val_main_cst_apply, Ideal.ofBits_def, negInf]
  rw [foldl_max_le_iff]
  constructor
  · -- every window entry is one of the fold's terms: the term at its row-major position
    rintro ⟨-, H⟩ a e f
    have h1 := H (Wn.rowMajor (ix4 (0 : Fin 1) a e f)) (List.mem_finRange _)
    simp only [Equiv.symm_apply_apply] at h1
    have j0 : (j 0).val < 8 := (j 0).isLt
    have j1 : (j 1).val < 32 := (j 1).isLt
    have j2 : (j 2).val < 128 := (j 2).isLt
    have j3 : (j 3).val < 128 := (j 3).isLt
    split at h1
    · refine le_of_eq_of_le (congrArg x ?_) h1
      funext b
      apply Fin.ext
      match b with
      | ⟨0, _⟩ => show (j 0).val = (j 0).val * 1 + 0 - 0; omega
      | ⟨1, _⟩ => show 2 * (j 1).val + a.val = (j 1).val * 2 + a.val - 0; omega
      | ⟨2, _⟩ => show 2 * (j 2).val + e.val = (j 2).val * 2 + e.val - 0; omega
      | ⟨3, _⟩ => show 2 * (j 3).val + f.val = (j 3).val * 2 + f.val - 0; omega
    · next hout =>
      refine absurd (fun b => ?_) hout
      match b with
      | ⟨0, _⟩ => show 0 ≤ (j 0).val * 1 + 0 ∧ (j 0).val * 1 + 0 - 0 < 8; omega
      | ⟨1, _⟩ => show 0 ≤ (j 1).val * 2 + a.val ∧ (j 1).val * 2 + a.val - 0 < 64; omega
      | ⟨2, _⟩ => show 0 ≤ (j 2).val * 2 + e.val ∧ (j 2).val * 2 + e.val - 0 < 256; omega
      | ⟨3, _⟩ => show 0 ≤ (j 3).val * 2 + f.val ∧ (j 3).val * 2 + f.val - 0 < 256; omega
  · -- every term of the fold is a window entry (or the seed)
    intro H
    refine ⟨bot_le, fun n _ => ?_⟩
    have i1 : (Wn.rowMajor.symm n 1).val < 2 := (Wn.rowMajor.symm n 1).isLt
    have i2 : (Wn.rowMajor.symm n 2).val < 2 := (Wn.rowMajor.symm n 2).isLt
    have i3 : (Wn.rowMajor.symm n 3).val < 2 := (Wn.rowMajor.symm n 3).isLt
    have i0 : (Wn.rowMajor.symm n 0).val < 1 := (Wn.rowMajor.symm n 0).isLt
    split
    · refine le_of_eq_of_le (congrArg x ?_) (H ⟨_, i1⟩ ⟨_, i2⟩ ⟨_, i3⟩)
      funext b
      apply Fin.ext
      match b with
      | ⟨0, _⟩ => show (j 0).val * 1 + (Wn.rowMajor.symm n 0).val - 0 = (j 0).val; omega
      | ⟨1, _⟩ => show (j 1).val * 2 + (Wn.rowMajor.symm n 1).val - 0 = 2 * (j 1).val + (Wn.rowMajor.symm n 1).val; omega
      | ⟨2, _⟩ => show (j 2).val * 2 + (Wn.rowMajor.symm n 2).val - 0 = 2 * (j 2).val + (Wn.rowMajor.symm n 2).val; omega
      | ⟨3, _⟩ => show (j 3).val * 2 + (Wn.rowMajor.symm n 3).val - 0 = 2 * (j 3).val + (Wn.rowMajor.symm n 3).val; omega
    · exact bot_le

end Cert.ReferenceIdeal.RefValue

end
-- ==== Proof.lean ====
/-
  A 2×2×2 max-pool with stride 2 over f32[8, 64, 256, 256], computed by a kernel one [16, 256, 256] slab at a time
  (adjacent depth pairs, then even against odd rows, then even against odd columns) against a windowed maximum seeded
  with `-∞`.

  On the extended reals `max` is the join of a linear order whose least element is `-∞`, so both programs compute, at
  each result index, the supremum of the same eight argument entries: `Cert.Pool.pool`.  Each side is identified with
  that supremum by its upper bounds — the kernel's block entry in Proof/KernelBlock.lean and the whole result array in
  Proof/KernelValue.lean, the reference's fold in Proof/RefPool.lean.  No law used here needs finiteness, so the
  precondition is never opened.  The idealization rewrote no operation, so there is nothing to preserve.
-/
import proofs.«126995_j13537736917667_1_alg».proof.Defs
import proofs.«126995_j13537736917667_1_alg».proof.Proof.Gen.Kernel
import proofs.«126995_j13537736917667_1_alg».proof.Proof.Gen.Kernel.Skeleton
import proofs.«126995_j13537736917667_1_alg».proof.Proof.Gen.Kernel.Launch
import proofs.«126995_j13537736917667_1_alg».proof.Proof.Gen.Kernel.Points
import proofs.«126995_j13537736917667_1_alg».proof.Proof.Gen.Kernel.Frame
import proofs.«126995_j13537736917667_1_alg».proof.Proof.Gen.KernelIdeal
import proofs.«126995_j13537736917667_1_alg».proof.Proof.Gen.KernelIdeal.Skeleton
import proofs.«126995_j13537736917667_1_alg».proof.Proof.Gen.KernelIdeal.Launch
import proofs.«126995_j13537736917667_1_alg».proof.Proof.Gen.KernelIdeal.Points
import proofs.«126995_j13537736917667_1_alg».proof.Proof.Gen.KernelIdeal.Frame
import proofs.«126995_j13537736917667_1_alg».proof.Proof.Gen.ReferenceIdeal
import proofs.«126995_j13537736917667_1_alg».proof.Proof.Gen.Pre_finite_inputs
import proofs.«126995_j13537736917667_1_alg».proof.Proof.Gen.KernelIdeal.Value
import proofs.«126995_j13537736917667_1_alg».proof.Proof.Gen.ReferenceIdeal.Run
import proofs.«126995_j13537736917667_1_alg».proof.Proof.Gen.ReferenceIdeal.Read
import proofs.«126995_j13537736917667_1_alg».proof.Proof.KernelValue
import proofs.«126995_j13537736917667_1_alg».proof.Proof.RefPool
import Idealize.ShloMosaic.Adequacy
import Idealize.ShloMosaic.Init

noncomputable section

namespace Cert.Proof

open Idealize.ShloMosaic Idealize.SL.Sem Cert.Kernel

/-- The word-level kernel runs and leaves its argument as it was. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument as it was: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array and the reference's both end at the pooled array of the
    argument. -/
theorem algebraic : Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq_pool, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
